-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S5000x128 : Shape := ⟨2, ![5000, 128]⟩
abbrev S1x128 : Shape := ⟨2, ![1, 128]⟩
abbrev S5000x1 : Shape := ⟨2, ![5000, 1]⟩
abbrev S1x1 : Shape := ⟨2, ![1, 1]⟩

abbrev nBuf : Space → Nat
  | .hbm => 67
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S_, .f32⟩
  | .hbm, ⟨54, _⟩ => ⟨S800000, .f32⟩
  | .hbm, ⟨55, _⟩ => ⟨S_, .f32⟩
  | .hbm, ⟨56, _⟩ => ⟨S50000, .f32⟩
  | .hbm, ⟨57, _⟩ => ⟨S800000x1, .i32⟩
  | .hbm, ⟨58, _⟩ => ⟨S50000, .f32⟩
  | .hbm, ⟨59, _⟩ => ⟨S_, .f32⟩
  | .hbm, ⟨60, _⟩ => ⟨S50000, .f32⟩
  | .hbm, ⟨61, _⟩ => ⟨S50000, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S50000x1, .f32⟩
  | .hbm, ⟨66, _⟩ => ⟨S50000, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S128x1, .f32⟩
  | .local _ .vmem, ⟨17, _⟩ => ⟨S1, .f32⟩
  | .local _ .vmem, ⟨18, _⟩ => ⟨S5000x1, .f32⟩
  | .local _ .vmem, ⟨19, _⟩ => ⟨S5000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1.size a ≤ S1.size a
  hwx1_6 : ∀ i : grid1.Coords, EltTy.bits .f32 = 32 ∨ (Rect.block (s := S1) S1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S50000x1.size a
  hwx1_7 : ∀ i : grid1.Coords, EltTy.bits .f32 = 32 ∨ (Rect.block (s := S50000x1) S5000x1.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .f32⟩
  | .hbm, ⟨57, _⟩ => ⟨S_, .f32⟩
  | .hbm, ⟨58, _⟩ => ⟨S50000x128, .f32⟩
  | .hbm, ⟨59, _⟩ => ⟨S800000x1, .i32⟩
  | .hbm, ⟨60, _⟩ => ⟨S50000x128, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x1, .f32⟩
  | .hbm, ⟨80, _⟩ => ⟨S1x1, .f32⟩
  | .hbm, ⟨81, _⟩ => ⟨S50000x1, .f32⟩
  | .hbm, ⟨82, _⟩ => ⟨S50000x1, .f32⟩
  | .hbm, ⟨83, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Model.lean ====
/-
  The mathematics both programs compute, stated once, index by index, on the extended reals.

  A GraphSAGE layer combines, for node `r` and output column `c`, the aggregated neighbour features
  `a` and the node's own features `x`:
      combine a x Wl Wr b r c = (∑ k, a[r,k] · Wl[k,c]) + (∑ k, x[r,k] · Wr[k,c]) + b[c].
  The first layer clamps it below at zero (`hidden`); the second layer is followed by a linear
  head with one output column (`score`):
      score a h Wl Wr b Wfc bfc r = (∑ k, combine a h Wl Wr b r k · Wfc[k,0]) + bfc[0].
  The whole network takes the neighbour aggregation as a PARAMETER `A` (both programs compute it by
  the same gather / scatter-add / divide chain, which is never opened): `network A …`.
  No law of the extended reals is used anywhere: the two programs add and multiply the same terms in
  the same grouping; only the tiling of the node axis and the spelling of the index maps differ.
-/
import Idealize.ShloMosaic.PureOps.Ideal
import Idealize.ShloMosaic.Lib.ValueIdx

noncomputable section

namespace Cert.Sage

open Idealize.ShloMosaic Idealize.ShloMosaic.ValueIdx

/-- Node features: 50000 nodes, 128 columns. -/
abbrev NodeMat : Shape := ⟨2, ![50000, 128]⟩
/-- A square weight matrix. -/
abbrev WMat : Shape := ⟨2, ![128, 128]⟩
/-- A bias row. -/
abbrev BiasRow : Shape := ⟨1, ![128]⟩
/-- The head's weight column. -/
abbrev HeadCol : Shape := ⟨2, ![128, 1]⟩
/-- The head's bias. -/
abbrev HeadBias : Shape := ⟨1, ![1]⟩
/-- The head's output as a column. -/
abbrev OutCol : Shape := ⟨2, ![50000, 1]⟩
/-- The head's output as a flat array. -/
abbrev OutFlat : Shape := ⟨1, ![50000]⟩

/-- One layer's linear combine at node `r`, column `c`. -/
def combine (a x : NodeMat.Idx → EReal) (Wl Wr : WMat.Idx → EReal) (b : BiasRow.Idx → EReal)
    (r : Fin 50000) (c : Fin 128) : EReal :=
  (∑ k : Fin 128, a (ix2 r k) * Wl (ix2 k c)) + (∑ k : Fin 128, x (ix2 r k) * Wr (ix2 k c)) + b (ix1 c)

/-- The first layer: the combine clamped below at zero. -/
def hidden (a x : NodeMat.Idx → EReal) (Wl Wr : WMat.Idx → EReal) (b : BiasRow.Idx → EReal) : NodeMat.Idx → EReal :=
  fun i => max (combine a x Wl Wr b (i 0) (i 1)) 0

/-- The second layer followed by the one-column head, at node `r`. -/
def score (a h : NodeMat.Idx → EReal) (Wl Wr : WMat.Idx → EReal) (b : BiasRow.Idx → EReal)
    (Wfc : HeadCol.Idx → EReal) (bfc : HeadBias.Idx → EReal) (r : Fin 50000) : EReal :=
  (∑ k : Fin 128, combine a h Wl Wr b r k * Wfc (ix2 k (0 : Fin 1))) + bfc (ix1 (0 : Fin 1))

/-- The head's output laid out as a column. -/
def scoreCol (a h : NodeMat.Idx → EReal) (Wl Wr : WMat.Idx → EReal) (b : BiasRow.Idx → EReal)
    (Wfc : HeadCol.Idx → EReal) (bfc : HeadBias.Idx → EReal) : OutCol.Idx → EReal :=
  fun i => score a h Wl Wr b Wfc bfc (i 0)

/-- The head's output laid out flat. -/
def scoreFlat (a h : NodeMat.Idx → EReal) (Wl Wr : WMat.Idx → EReal) (b : BiasRow.Idx → EReal)
    (Wfc : HeadCol.Idx → EReal) (bfc : HeadBias.Idx → EReal) : OutFlat.Idx → EReal :=
  fun i => score a h Wl Wr b Wfc bfc (i 0)

/-- The whole network over a neighbour aggregation `A`. -/
def network (A : (NodeMat.Idx → EReal) → (NodeMat.Idx → EReal)) (x : NodeMat.Idx → EReal)
    (Wl0 Wr0 : WMat.Idx → EReal) (b0 : BiasRow.Idx → EReal) (Wl1 Wr1 : WMat.Idx → EReal) (b1 : BiasRow.Idx → EReal)
    (Wfc : HeadCol.Idx → EReal) (bfc : HeadBias.Idx → EReal) : OutFlat.Idx → EReal :=
  scoreFlat (A (hidden (A x) x Wl0 Wr0 b0)) (hidden (A x) x Wl0 Wr0 b0) Wl1 Wr1 b1 Wfc bfc

end Cert.Sage

end
-- ==== Proof.HostFolds.lean ====
/-
  The host side of the idealized kernel program, read as pure terms.

  Between its two regions the program runs plain array operations. Three stretches: before the first
  region (the edge list split into source and destination words, the neighbour mean of the input
  features), between the regions (the same neighbour mean of the first region's output), after the second
  (the output column laid flat). Each is a fold of its operations over ANY buffer contents `W`; this
  module reads that fold at the buffers the regions and the result depend on, and at the buffers a
  stretch leaves alone.

  The neighbour mean is carried as ONE function `meanAgg src dst x`, never opened: rows of `x` gathered at
  the (wrapped) source words, summed into the destination rows, divided by the in-degree clamped below at one.
-/
import proofs.«147138_j62861141344333_1_alg».proof.Proof.Gen.KernelIdeal.Launch
import Idealize.ShloMosaic.Lib.StableHlo.Run

noncomputable section

namespace Cert.Sage.KHost

open Cert.KernelIdeal Cert.KernelIdeal.Gen
open Idealize.ShloMosaic Idealize.ShloMosaic.TcCoe Idealize.SL.Sem Idealize.ShloMosaic.StableHlo

variable {F : FTy → Type} [FloatOps F]

/-- The edge list's source words: its first row, laid flat. -/
def srcOf (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- The edge list's destination words: its second row, laid flat. -/
def dstOf (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- The neighbour mean of the rows of `x`: gathered at the source words (a negative word wrapped by the node
    count), summed into the destination rows, divided by the destination's edge count clamped below at one. -/
def meanAgg (src dst : (⟨S800000, .i32⟩ : BufTy).Contents (Elt F)) (x : (⟨S50000x128, .f32⟩ : BufTy).Contents (Elt F)) :
    (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 dst)
            (broadcastInDim S800000 ![] bcast_S_S800000 (constant S_ .f32 0x3F800000#32)))
          (broadcastInDim S50000 ![] bcast_S_S50000 (constant S_ .f32 0x3F800000#32)))))

variable (W : Valuation τ sig (Elt F))

/-! ## The first stretch -/

theorem first_src : after hostOps0 W (Proc.devRef .tc main_v1) = srcOf (W (Proc.devRef .tc main_arg1)) := by
  after_results_simp <;> rfl

theorem first_dst : after hostOps0 W (Proc.devRef .tc main_v3) = dstOf (W (Proc.devRef .tc main_arg1)) := by
  after_results_simp <;> rfl

theorem first_mean : after hostOps0 W (Proc.devRef .tc main_v22)
    = meanAgg (srcOf (W (Proc.devRef .tc main_arg1))) (dstOf (W (Proc.devRef .tc main_arg1))) (W (Proc.devRef .tc main_arg0)) := by
  after_results_simp <;> rfl

/-- The first stretch writes no argument array. -/
theorem first_keeps_arg0 : after hostOps0 W (Proc.devRef .tc main_arg0) = W (Proc.devRef .tc main_arg0) := by
  after_results_simp
theorem first_keeps_arg2 : after hostOps0 W (Proc.devRef .tc main_arg2) = W (Proc.devRef .tc main_arg2) := by
  after_results_simp
theorem first_keeps_arg3 : after hostOps0 W (Proc.devRef .tc main_arg3) = W (Proc.devRef .tc main_arg3) := by
  after_results_simp
theorem first_keeps_arg4 : after hostOps0 W (Proc.devRef .tc main_arg4) = W (Proc.devRef .tc main_arg4) := by
  after_results_simp
theorem first_keeps_arg5 : after hostOps0 W (Proc.devRef .tc main_arg5) = W (Proc.devRef .tc main_arg5) := by
  after_results_simp
theorem first_keeps_arg6 : after hostOps0 W (Proc.devRef .tc main_arg6) = W (Proc.devRef .tc main_arg6) := by
  after_results_simp
theorem first_keeps_arg7 : after hostOps0 W (Proc.devRef .tc main_arg7) = W (Proc.devRef .tc main_arg7) := by
  after_results_simp
theorem first_keeps_arg8 : after hostOps0 W (Proc.devRef .tc main_arg8) = W (Proc.devRef .tc main_arg8) := by
  after_results_simp
theorem first_keeps_arg9 : after hostOps0 W (Proc.devRef .tc main_arg9) = W (Proc.devRef .tc main_arg9) := by
  after_results_simp

/-! ## The second stretch -/

theorem second_mean : after hostOps1 W (Proc.devRef .tc main_v42)
    = meanAgg (W (Proc.devRef .tc main_v1)) (W (Proc.devRef .tc main_v3)) (W (Proc.devRef .tc main_v23)) := by
  after_results_simp <;> rfl

/-- The second stretch writes neither the first region's output nor an argument array. -/
theorem second_keeps_v23 : after hostOps1 W (Proc.devRef .tc main_v23) = W (Proc.devRef .tc main_v23) := by
  after_results_simp
theorem second_keeps_arg5 : after hostOps1 W (Proc.devRef .tc main_arg5) = W (Proc.devRef .tc main_arg5) := by
  after_results_simp
theorem second_keeps_arg6 : after hostOps1 W (Proc.devRef .tc main_arg6) = W (Proc.devRef .tc main_arg6) := by
  after_results_simp
theorem second_keeps_arg7 : after hostOps1 W (Proc.devRef .tc main_arg7) = W (Proc.devRef .tc main_arg7) := by
  after_results_simp
theorem second_keeps_arg8 : after hostOps1 W (Proc.devRef .tc main_arg8) = W (Proc.devRef .tc main_arg8) := by
  after_results_simp
theorem second_keeps_arg9 : after hostOps1 W (Proc.devRef .tc main_arg9) = W (Proc.devRef .tc main_arg9) := by
  after_results_simp

/-! ## The closing stretch -/

theorem closing_flat : after hostOps2 W (Proc.devRef .tc main_v44)
    = shapeCast _ (W (Proc.devRef .tc main_v43)) shapeCasts_S50000x1_S50000 := by
  after_results_simp <;> rfl

end Cert.Sage.KHost

end
-- ==== Proof.KernelValue.lean ====
/-
  The idealized kernel program's result as a function of its arguments.

  The result buffer, read at the last boundary of @main, is the closing reshape of the second region's
  output array; that array is the second layer and head of the network over the second region's entry
  contents; of those, the aggregated features are the neighbour mean (second host stretch) of the first
  region's output array, which is the first layer over the first region's entry contents; and those are
  the neighbour mean (first host stretch) of the input features, and argument arrays nobody wrote.
  Walking that chain back to the launch memory gives the network of `Model.lean` over `meanAgg`.
-/
import proofs.«147138_j62861141344333_1_alg».proof.Proof.Model
import proofs.«147138_j62861141344333_1_alg».proof.Proof.HostFolds
import proofs.«147138_j62861141344333_1_alg».proof.Proof.Gen.KernelIdeal.Frame
import Idealize.ShloMosaic.Lib.Pipeline.Value

noncomputable section

namespace Cert.Sage.KValue

open Cert.KernelIdeal Cert.KernelIdeal.Gen Cert.Sage Cert.Sage.KHost
open Idealize.ShloMosaic Idealize.ShloMosaic.TcCoe Idealize.SL.Sem Idealize.ShloMosaic.ValueIdx

variable (m : (ℓ : Loc nD τ sig) → Buf (Elt Ideal) ℓ) (ρ : Dev nD → PrngReg)

/-- The head's output column laid flat is the same scores, node by node. -/
theorem flat_of_col (a h : NodeMat.Idx → EReal) (Wl Wr : WMat.Idx → EReal) (b : BiasRow.Idx → EReal)
    (Wfc : HeadCol.Idx → EReal) (bfc : HeadBias.Idx → EReal) (hc : OutCol.ShapeCasts OutFlat) :
    shapeCast OutFlat (scoreCol a h Wl Wr b Wfc bfc) hc = scoreFlat a h Wl Wr b Wfc bfc := by
  funext j
  refine (shapeCast_apply (scoreCol a h Wl Wr b Wfc bfc) hc j (ix2 (j 0) (0 : Fin 1)) ?_).trans rfl
  rw [Shape.rowMajor_val_two, Shape.rowMajor_val_one]
  show (j 0).val * 1 + 0 = (j 0).val
  omega

section
variable (c : Dev nD)

/-- The first region's output array after the region, given what a region leaves as a function of its entry
    contents: the first layer over the neighbour mean of the input features. -/
theorem first_out
    (h0 : ∀ (V : (c : Dev nD) → (b : Ref sig .tc) → Buf (Elt Ideal) ((c : Thread nD τ).loc b)) (c : Dev nD),
      (dat0 (F := Ideal) V c).arrAt 5 cfg0.N = hidden (V c main_v22) (V c main_arg0) (V c main_arg2) (V c main_arg3) (V c main_arg4)) :
    W2 m ρ c (Proc.devRef .tc main_v23)
      = hidden (meanAgg (srcOf (m ((c : Thread nD τ).loc main_arg1))) (dstOf (m ((c : Thread nD τ).loc main_arg1))) (m ((c : Thread nD τ).loc main_arg0)))
          (m ((c : Thread nD τ).loc main_arg0)) (m ((c : Thread nD τ).loc main_arg2)) (m ((c : Thread nD τ).loc main_arg3)) (m ((c : Thread nD τ).loc main_arg4)) := by
  have e1 : V1 m ρ c main_v22 = meanAgg (srcOf (m ((c : Thread nD τ).loc main_arg1))) (dstOf (m ((c : Thread nD τ).loc main_arg1))) (m ((c : Thread nD τ).loc main_arg0)) :=
    first_mean (W0 m ρ c)
  have e2 : V1 m ρ c main_arg0 = m ((c : Thread nD τ).loc main_arg0) := first_keeps_arg0 (W0 m ρ c)
  have e3 : V1 m ρ c main_arg2 = m ((c : Thread nD τ).loc main_arg2) := first_keeps_arg2 (W0 m ρ c)
  have e4 : V1 m ρ c main_arg3 = m ((c : Thread nD τ).loc main_arg3) := first_keeps_arg3 (W0 m ρ c)
  have e5 : V1 m ρ c main_arg4 = m ((c : Thread nD τ).loc main_arg4) := first_keeps_arg4 (W0 m ρ c)
  calc W2 m ρ c (Proc.devRef .tc main_v23)
      = hidden (V1 m ρ c main_v22) (V1 m ρ c main_arg0) (V1 m ρ c main_arg2) (V1 m ρ c main_arg3) (V1 m ρ c main_arg4) :=
        (W2_arr m ρ c 5).trans (h0 (V1 m ρ) c)
    _ = _ := by rw [e1, e2, e3, e4, e5]

/-- An argument array the second region reads, at that region's entry: nobody wrote it. -/
theorem second_entry_arg5 : V3 m ρ c main_arg5 = m ((c : Thread nD τ).loc main_arg5) :=
  (second_keeps_arg5 (W2 m ρ c)).trans ((W2_of_ne m ρ c main_arg5 (by decide)).trans (first_keeps_arg5 (W0 m ρ c)))
theorem second_entry_arg6 : V3 m ρ c main_arg6 = m ((c : Thread nD τ).loc main_arg6) :=
  (second_keeps_arg6 (W2 m ρ c)).trans ((W2_of_ne m ρ c main_arg6 (by decide)).trans (first_keeps_arg6 (W0 m ρ c)))
theorem second_entry_arg7 : V3 m ρ c main_arg7 = m ((c : Thread nD τ).loc main_arg7) :=
  (second_keeps_arg7 (W2 m ρ c)).trans ((W2_of_ne m ρ c main_arg7 (by decide)).trans (first_keeps_arg7 (W0 m ρ c)))
theorem second_entry_arg8 : V3 m ρ c main_arg8 = m ((c : Thread nD τ).loc main_arg8) :=
  (second_keeps_arg8 (W2 m ρ c)).trans ((W2_of_ne m ρ c main_arg8 (by decide)).trans (first_keeps_arg8 (W0 m ρ c)))
theorem second_entry_arg9 : V3 m ρ c main_arg9 = m ((c : Thread nD τ).loc main_arg9) :=
  (second_keeps_arg9 (W2 m ρ c)).trans ((W2_of_ne m ρ c main_arg9 (by decide)).trans (first_keeps_arg9 (W0 m ρ c)))

/-- The edge words the second stretch reads are the first stretch's, untouched by the first region. -/
theorem second_entry_src : W2 m ρ c (Proc.devRef .tc main_v1) = srcOf (m ((c : Thread nD τ).loc main_arg1)) :=
  (W2_of_ne m ρ c main_v1 (by decide)).trans (first_src (W0 m ρ c))
theorem second_entry_dst : W2 m ρ c (Proc.devRef .tc main_v3) = dstOf (m ((c : Thread nD τ).loc main_arg1)) :=
  (W2_of_ne m ρ c main_v3 (by decide)).trans (first_dst (W0 m ρ c))

/-- The second region's output array after the region: the second layer and head over the neighbour mean of
    the first layer's output. -/
theorem second_out
    (h0 : ∀ (V : (c : Dev nD) → (b : Ref sig .tc) → Buf (Elt Ideal) ((c : Thread nD τ).loc b)) (c : Dev nD),
      (dat0 (F := Ideal) V c).arrAt 5 cfg0.N = hidden (V c main_v22) (V c main_arg0) (V c main_arg2) (V c main_arg3) (V c main_arg4))
    (h1 : ∀ (V : (c : Dev nD) → (b : Ref sig .tc) → Buf (Elt Ideal) ((c : Thread nD τ).loc b)) (c : Dev nD),
      (dat1 (F := Ideal) V c).arrAt 7 cfg1.N = scoreCol (V c main_v42) (V c main_v23) (V c main_arg5) (V c main_arg6) (V c main_arg7) (V c main_arg8) (V c main_arg9)) :
    W4 m ρ c (Proc.devRef .tc main_v43)
      = scoreCol (meanAgg (srcOf (m ((c : Thread nD τ).loc main_arg1))) (dstOf (m ((c : Thread nD τ).loc main_arg1))) (hidden (meanAgg (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg3)) (m ((c : Thread nD τ).loc main_arg4)))) (hidden (meanAgg (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg3)) (m ((c : Thread nD τ).loc main_arg4)))
          (m ((c : Thread nD τ).loc main_arg5)) (m ((c : Thread nD τ).loc main_arg6)) (m ((c : Thread nD τ).loc main_arg7)) (m ((c : Thread nD τ).loc main_arg8)) (m ((c : Thread nD τ).loc main_arg9)) := by
  have eh : V3 m ρ c main_v23 = (hidden (meanAgg (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg3)) (m ((c : Thread nD τ).loc main_arg4))) :=
    (second_keeps_v23 (W2 m ρ c)).trans (first_out m ρ c h0)
  have ea : V3 m ρ c main_v42 = meanAgg (srcOf (m ((c : Thread nD τ).loc main_arg1))) (dstOf (m ((c : Thread nD τ).loc main_arg1))) (hidden (meanAgg (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg3)) (m ((c : Thread nD τ).loc main_arg4))) := by
    refine (second_mean (W2 m ρ c)).trans ?_
    rw [second_entry_src m ρ c, second_entry_dst m ρ c, first_out m ρ c h0]
  calc W4 m ρ c (Proc.devRef .tc main_v43)
      = scoreCol (V3 m ρ c main_v42) (V3 m ρ c main_v23) (V3 m ρ c main_arg5) (V3 m ρ c main_arg6) (V3 m ρ c main_arg7) (V3 m ρ c main_arg8) (V3 m ρ c main_arg9) :=
        (W4_arr m ρ c 7).trans (h1 (V3 m ρ) c)
    _ = _ := by rw [ea, eh, second_entry_arg5 m ρ c, second_entry_arg6 m ρ c, second_entry_arg7 m ρ c, second_entry_arg8 m ρ c, second_entry_arg9 m ρ c]

/-- THE KERNEL PROGRAM'S RESULT, read at the last boundary of @main: the network's scores, laid flat. -/
theorem result_eq
    (h0 : ∀ (V : (c : Dev nD) → (b : Ref sig .tc) → Buf (Elt Ideal) ((c : Thread nD τ).loc b)) (c : Dev nD),
      (dat0 (F := Ideal) V c).arrAt 5 cfg0.N = hidden (V c main_v22) (V c main_arg0) (V c main_arg2) (V c main_arg3) (V c main_arg4))
    (h1 : ∀ (V : (c : Dev nD) → (b : Ref sig .tc) → Buf (Elt Ideal) ((c : Thread nD τ).loc b)) (c : Dev nD),
      (dat1 (F := Ideal) V c).arrAt 7 cfg1.N = scoreCol (V c main_v42) (V c main_v23) (V c main_arg5) (V c main_arg6) (V c main_arg7) (V c main_arg8) (V c main_arg9)) :
    W5 m ρ c (Proc.devRef .tc main_v44)
      = scoreFlat (meanAgg (srcOf (m ((c : Thread nD τ).loc main_arg1))) (dstOf (m ((c : Thread nD τ).loc main_arg1))) (hidden (meanAgg (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg3)) (m ((c : Thread nD τ).loc main_arg4)))) (hidden (meanAgg (srcOf (m ((c : Thread nD τ).loc main_arg1))) (dstOf (m ((c : Thread nD τ).loc main_arg1))) (m ((c : Thread nD τ).loc main_arg0))) (m ((c : Thread nD τ).loc main_arg0)) (m ((c : Thread nD τ).loc main_arg2)) (m ((c : Thread nD τ).loc main_arg3)) (m ((c : Thread nD τ).loc main_arg4)))
          (m ((c : Thread nD τ).loc main_arg5)) (m ((c : Thread nD τ).loc main_arg6)) (m ((c : Thread nD τ).loc main_arg7)) (m ((c : Thread nD τ).loc main_arg8)) (m ((c : Thread nD τ).loc main_arg9)) := by
  refine (closing_flat (W4 m ρ c)).trans ?_
  rw [second_out m ρ c h0 h1]
  exact flat_of_col _ _ _ _ _ _ _ _

end

end Cert.Sage.KValue

end
-- ==== Proof.Region0.lean ====
/-
  The first layer's kernel, read as one function of the whole arrays.

  The grid has ten points; point t works on rows 5000·t … 5000·t + 4999 of the aggregated
  features and of the node features, on the two whole weight matrices and on the whole bias row,
  and writes rows 5000·t … of the result.  On its block the body computes, at row p and column q,
      max ((∑ k, a[p,k] · Wl[k,q]) + (∑ k, x[p,k] · Wr[k,q]) + b[q]) 0,
  which at array row 5000·t + p is the model's `hidden` there.  The ten blocks tile the node
  axis, so the array ends holding `hidden` everywhere.
-/
import proofs.«147138_j62861141344333_1_alg».proof.Proof.Model
import proofs.«147138_j62861141344333_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section
open Idealize.ShloMosaic Idealize.ShloMosaic.TcCoe Idealize.SL.Sem Idealize.ShloMosaic.ValueIdx

namespace Cert.Sage.K0
open Cert.KernelIdeal Cert.KernelIdeal.Gen Cert.Sage

/-! ## The matrix product's operand indices, axis by axis -/

/-- The left operand's row is the output's row. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the contracted index. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row is the contracted index. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## One matrix product at an index -/

/-- A block times a weight matrix into the zero accumulator, at row `p` and column `q`: the sum
    over the 128 contracted columns. -/
theorem matmul_at (a : FVec Ideal S5000x128 .bf16) (w : FVec Ideal S128x128 .bf16) (p : Fin 5000) (q : Fin 128) :
    matmul (F := Ideal) dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The bias row, spread over the block's rows -/

/-- The bias row seen as a one-row matrix and repeated down the rows reads, at row `p` and column
    `q`, the bias at `q`. -/
theorem bias_at (b : Vec Ideal S128 .f32) (p : Fin 5000) (q : Fin 128) :
    broadcastTo S5000x128 (shapeCast S1x128 b shapeCasts_S128_S1x128) broadcasts_S1x128_S5000x128 (ix2 p q) = b (ix1 q) := by
  rw [broadcastTo_1b_ab_apply, shapeCast_a_1a_apply]

/-! ## The body's result at an index -/

/-- The body's result on its blocks, at row `p` and column `q`. -/
theorem pay_apply (x0 x1 : Vec Ideal S5000x128 .f32) (x2 x3 : Vec Ideal S128x128 .f32) (x4 : Vec Ideal S128 .f32)
    (p : Fin 5000) (q : Fin 128) :
    k0_pay1 (F := Ideal) x0 x1 x2 x3 x4 (ix2 p q)
      = max ((∑ k : Fin 128, x0 (ix2 p k) * x2 (ix2 k q)) + (∑ k : Fin 128, x1 (ix2 p k) * x3 (ix2 k q)) + x4 (ix1 q)) 0 := by
  unfold k0_pay1
  rw [maximumf_apply, addf_apply, addf_apply, broadcast_apply, matmul_at, matmul_at, bias_at]
  simp only [truncf_apply, shapeCast_self]
  show max _ (Ideal.ofBits .f32 0x00000000#32) = _
  rw [Ideal.ofBits_zero_f32]

/-! ## Where each window's block sits in its array -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The block indices of the six windows at grid point `t`: the three row-tiled windows are on block
    row `t`, block column 0; the two weight matrices and the bias row are always on block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The aggregated features' block at point `t`, row `p`, is array row `5000·t + p`. -/
theorem read_agg (c : Dev nD) (t : Fin cfg0.N) (p : Fin 5000) (r : Fin 50000) (hr : r.val = t.val * 5000 + p.val) (k : Fin 128) :
    (iblk0 V c 0 t : Vec Ideal S5000x128 .f32) (ix2 p k) = (V c main_v22 : S50000x128.Idx → EReal) (ix2 r k) := by
  obtain ⟨e0, e1, -⟩ := block_indices t
  show V c main_v22 (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The node features' block at point `t`, row `p`, is array row `5000·t + p`. -/
theorem read_x (c : Dev nD) (t : Fin cfg0.N) (p : Fin 5000) (r : Fin 50000) (hr : r.val = t.val * 5000 + p.val) (k : Fin 128) :
    (iblk0 V c 1 t : Vec Ideal S5000x128 .f32) (ix2 p k) = (V c main_arg0 : S50000x128.Idx → EReal) (ix2 r k) := by
  obtain ⟨-, -, e0, e1, -⟩ := block_indices t
  show V c main_arg0 (((cfg0.win 1).blk t).view.emb (ix2 p k)) = _
  refine congrArg _ (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- The first weight matrix's block is the matrix. -/
theorem read_Wl (c : Dev nD) (t : Fin cfg0.N) (k q : Fin 128) :
    (iblk0 V c 2 t : Vec Ideal S128x128 .f32) (ix2 k q) = (V c main_arg2 : S128x128.Idx → EReal) (ix2 k q) := by
  obtain ⟨-, -, -, -, e0, e1, -⟩ := block_indices t
  show V c main_arg2 (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The second weight matrix's block is the matrix. -/
theorem read_Wr (c : Dev nD) (t : Fin cfg0.N) (k q : Fin 128) :
    (iblk0 V c 3 t : Vec Ideal S128x128 .f32) (ix2 k q) = (V c main_arg3 : S128x128.Idx → EReal) (ix2 k q) := by
  obtain ⟨-, -, -, -, -, -, e0, e1, -⟩ := block_indices t
  show V c main_arg3 (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row's block is the row. -/
theorem read_b (c : Dev nD) (t : Fin cfg0.N) (q : Fin 128) :
    (iblk0 V c 4 t : Vec Ideal S128 .f32) (ix1 q) = (V c main_arg4 : S128.Idx → EReal) (ix1 q) := by
  obtain ⟨-, -, -, -, -, -, -, -, e0, -⟩ := block_indices t
  show V c main_arg4 (((cfg0.win 4).blk t).view.emb (ix1 q)) = _
  refine congrArg _ (funext fun a => Fin.ext ?_)
  match a with
  | ⟨0, _⟩ => show win0_4.index t (0 : Fin 1) * 128 + 1 * q.val = q.val; omega

/-- The result's block at point `t`: row `p` of the block is array row `5000·t + p`, -/
theorem out_row (t : Fin cfg0.N) (y : S5000x128.Idx) :
    ((((cfg0.win 5).blk t).view.emb y : S50000x128.Idx) 0).val = t.val * 5000 + (y 0).val := by
  obtain ⟨-, -, -, -, -, -, -, -, -, e0, e1⟩ := block_indices t
  show win0_5.index t (0 : Fin 2) * 5000 + 1 * (y 0).val = _
  omega
/-- and its columns are the array's. -/
theorem out_col (t : Fin cfg0.N) (y : S5000x128.Idx) :
    (((cfg0.win 5).blk t).view.emb y : S50000x128.Idx) 1 = y 1 := by
  obtain ⟨-, -, -, -, -, -, -, -, -, e0, e1⟩ := block_indices t
  apply Fin.ext
  show win0_5.index t (1 : Fin 2) * 128 + 1 * (y 1).val = (y 1).val
  omega

/-! ## What a grid point writes back -/

/-- The body's result on point `t`'s blocks is the first layer's value on the array rows the block covers. -/
theorem block_value (c : Dev nD) (t : Fin cfg0.N) (y : S5000x128.Idx) :
    k0_pay1 (F := Ideal) (iblk0 V c 0 t) (iblk0 V c 1 t) (iblk0 V c 2 t) (iblk0 V c 3 t) (iblk0 V c 4 t) y
      = hidden (V c main_v22) (V c main_arg0) (V c main_arg2) (V c main_arg3) (V c main_arg4) (((cfg0.win 5).blk t).view.emb y) := by
  refine (congrArg _ (eq_ix2 y)).trans ((pay_apply _ _ _ _ _ (y 0) (y 1)).trans ?_)
  have h0 := out_row t y
  have h1 := out_col t y
  unfold hidden combine
  rw [h1]
  refine congrArg₂ max (congrArg₂ (· + ·) (congrArg₂ (· + ·) (Finset.sum_congr rfl fun k _ => ?_) (Finset.sum_congr rfl fun k _ => ?_)) ?_) rfl
  · rw [read_agg V c t (y 0) _ h0 k, read_Wl V c t k (y 1)]
  · rw [read_x V c t (y 0) _ h0 k, read_Wr V c t k (y 1)]
  · exact read_b V c t (y 1)

/-- What point `t` writes back is block `t` of the first layer's value as one function of the arrays. -/
theorem flushed_eq (c : Dev nD) (t : Fin cfg0.N) :
    (dat0 (F := Ideal) V c).flushed 5 t
      = ((cfg0.win 5).blk t).view.read (Elt Ideal) (hidden (V c main_v22) (V c main_arg0) (V c main_arg2) (V c main_arg3) (V c main_arg4)) := by
  show (cfg0.win 5).cut (grid0.coords t) ((dat0 (F := Ideal) V c).after 5 t) = _
  rw [after0_5]
  unfold out0_5
  rw [View.canon_unit_zero zero2]
  simp only [View.ld_unit_zero (S := S5000x128) zero2, View.ld_unit_zero (S := S128x128) zero2, View.ld_unit_zero (S := S128) zero1]
  funext y
  exact block_value V c t y

/-! ## The ten blocks tile the node axis -/

/-- An index of the result array is in point `t`'s block iff each coordinate is in the block's range. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v23).slice (win0_5.rect t)).set ↔ _
  rw [View.set_slice_whole, Rect.mem_set_unit]
  exact Iff.rfl

/-- Every index of the result array is in the block of the point its row falls in. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := by decide
  let t : Fin cfg0.N := ⟨(i 0).val / 5000, by rw [hN]; omega⟩
  have ht : t.val = (i 0).val / 5000 := rfl
  obtain ⟨-, -, -, -, -, -, -, -, -, e0, e1⟩ := block_indices t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-! ## The array after the region -/

/-- After the first kernel's ten points the result array holds the first layer's value, as one function of the
    arrays the region found. -/
theorem region0_value (c : Dev nD) :
    (dat0 (F := Ideal) V c).arrAt 5 cfg0.N
      = hidden (V c main_v22) (V c main_arg0) (V c main_arg2) (V c main_arg3) (V c main_arg4) :=
  (dat0 (F := Ideal) V c).arrAt_eq_of_cover 5 _ (fun t _ => flushed_eq V c t) covered

end Cert.Sage.K0
end
-- ==== Proof.Region1.lean ====
/-
  What the second kernel region leaves in its output array, as one function of the arrays it reads.

  The region runs over ten points; point `t` reads rows `5000 t … 5000 t + 4999` of the aggregated neighbour
  features `a` and of the node features `h`, and the whole of the weights `Wl`, `Wr`, the bias row `b`, the head's
  column `Wfc` and the head's bias `bfc`. Its body computes, for row `p` of the block,
      (∑ k, ((∑ j, a[p,j] · Wl[j,k]) + (∑ j, h[p,j] · Wr[j,k]) + b[k]) · Wfc[k,0]) + bfc[0],
  which is the score of node `5000 t + p`; it writes that column back as rows `5000 t … 5000 t + 4999` of the
  output. The ten blocks tile the 50000 rows, so the output array ends holding the score column.

  The steps: the operand indices of the two kinds of block product, axis by axis; each product at an index as a sum
  over the shared axis; the body's value at a row; each window's block read where it lies in its array (the index
  maps decided once over the ten points); what a point writes back; the cover; the array.
  No law of the extended reals is used: both sides add and multiply the same terms in the same grouping.
-/
import proofs.«147138_j62861141344333_1_alg».proof.Proof.Model
import proofs.«147138_j62861141344333_1_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws

noncomputable section
open Idealize.ShloMosaic Idealize.ShloMosaic.TcCoe Idealize.SL.Sem Idealize.ShloMosaic.ValueIdx

namespace Cert.Sage.K1
open Cert.KernelIdeal Cert.KernelIdeal.Gen Cert.Sage

/-! ## The operand indices of the two block products, axis by axis -/

/-- Square product, left operand, row axis: the output's row. -/
theorem sq_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Square product, left operand, column axis: the contraction index. -/
theorem sq_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Square product, right operand, row axis: the contraction index. -/
theorem sq_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Square product, right operand, column axis: the output's column. -/
theorem sq_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Head product, left operand, row axis: the output's row. -/
theorem hd_lhs_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- Head product, left operand, column axis: the contraction index. -/
theorem hd_lhs_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- Head product, right operand, row axis: the contraction index. -/
theorem hd_rhs_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- Head product, right operand, column axis: the output's (only) column. -/
theorem hd_rhs_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-! ## The block products at an index -/

/-- A [5000,128] × [128,128] product into the zero block, at row `p` and column `q`: the sum over the shared axis. -/
theorem sq_apply (x : FVec Ideal S5000x128 .bf16) (w : FVec Ideal S128x128 .bf16) (p : Fin 5000) (q : Fin 128) :
    matmul dot_S5000x128_S128x128_S5000x128_1_0_0_1_n_n none x w (constant (F := Ideal) S5000x128 .f32 0x00000000#32) (ix2 p q)
      = ∑ k : Fin 128, x (ix2 p k) * w (ix2 k q) := by
  refine (Ideal.matmul_constant_zero_apply dot_S5000x128_S128x128_S5000x128_1_0_0_1_n_n none x w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact sq_lhs_0 _ _
    | ⟨1, _⟩ => exact (sq_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (sq_rhs_0 _ _).trans hk
    | ⟨1, _⟩ => exact sq_rhs_1 _ _)
  rw [el, er]

/-- A [5000,128] × [128,1] product into the zero column, at row `p`: the sum over the shared axis. -/
theorem hd_apply (x : FVec Ideal S5000x128 .bf16) (w : FVec Ideal S128x1 .bf16) (p : Fin 5000) (u : Fin 1) :
    matmul dot_S5000x128_S128x1_S5000x1_1_0_0_1_n_n none x w (constant (F := Ideal) S5000x1 .f32 0x00000000#32) (ix2 p u)
      = ∑ k : Fin 128, x (ix2 p k) * w (ix2 k u) := by
  refine (Ideal.matmul_constant_zero_apply dot_S5000x128_S128x1_S5000x1_1_0_0_1_n_n none x w (ix2 p u)).trans ?_
  rw [← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx (ix2 p u) ((ValueIdx.contrEquiv1 dot_S5000x128_S128x1_S5000x1_1_0_0_1_n_n 128 rfl rfl).symm k) = ix2 p k := funext fun a => Fin.ext (by
    match a with
    | ⟨0, _⟩ => exact hd_lhs_0 _ _
    | ⟨1, _⟩ => exact (hd_lhs_1 _ _).trans hk)
  have er : dot_S5000x128_S128x1_S5000x1_1_0_0_1_n_n.rhsIdx (ix2 p u) ((ValueIdx.contrEquiv1 dot_S5000x128_S128x1_S5000x1_1_0_0_1_n_n 128 rfl rfl).symm k) = ix2 k u := funext fun a => Fin.ext (by
    match a with
    | ⟨0, _⟩ => exact (hd_rhs_0 _ _).trans hk
    | ⟨1, _⟩ => exact hd_rhs_1 _ _)
  rw [el, er]

/-! ## The payload at an index -/

/-- The body's value at row `p` of its block: the two products added, the bias row added, that row times the head's
    column, the head's bias added. -/
theorem pay_apply (x0 x1 : Vec Ideal S5000x128 .f32) (x2 x3 : Vec Ideal S128x128 .f32) (x4 : Vec Ideal S128 .f32)
    (x5 : Vec Ideal S128x1 .f32) (x6 : Vec Ideal S1 .f32) (p : Fin 5000) (u : Fin 1) :
    k1_pay1 x0 x1 x2 x3 x4 x5 x6 (ix2 p u)
      = (∑ k : Fin 128, ((∑ j : Fin 128, x0 (ix2 p j) * x2 (ix2 j k)) + (∑ j : Fin 128, x1 (ix2 p j) * x3 (ix2 j k)) + x4 (ix1 k))
          * x5 (ix2 k u)) + x6 (ix1 u) := by
  unfold k1_pay1
  refine (addf_apply _ _ _).trans ?_
  refine congrArg₂ (· + ·) ((hd_apply _ _ p u).trans (Finset.sum_congr rfl fun k _ => congrArg₂ (· * ·) ?_ ?_)) ?_
  · refine (truncf_apply (φ := .f32) (ψ := .bf16) _ _ _).trans ?_
    refine (addf_apply _ _ _).trans ?_
    refine congrArg₂ (· + ·) ((addf_apply _ _ _).trans (congrArg₂ (· + ·) ?_ ?_)) ?_
    · refine (sq_apply _ _ p k).trans (Finset.sum_congr rfl fun j _ => congrArg₂ (· * ·) ?_ ?_)
      · refine (truncf_apply (φ := .f32) (ψ := .bf16) _ _ _).trans ?_
        exact congrFun (shapeCast_self x0 _) _
      · exact truncf_apply (φ := .f32) (ψ := .bf16) _ _ _
    · refine (sq_apply _ _ p k).trans (Finset.sum_congr rfl fun j _ => congrArg₂ (· * ·) ?_ ?_)
      · refine (truncf_apply (φ := .f32) (ψ := .bf16) _ _ _).trans ?_
        exact congrFun (shapeCast_self x1 _) _
      · exact truncf_apply (φ := .f32) (ψ := .bf16) _ _ _
    · refine (broadcastTo_1b_ab_apply _ _ p k).trans ?_
      exact shapeCast_a_1a_apply x4 _ 0 k
  · exact truncf_apply (φ := .f32) (ψ := .bf16) _ _ _
  · refine (broadcastTo_1b_ab_apply _ _ p u).trans ?_
    exact shapeCast_a_1a_apply x6 _ 0 u

/-! ## From the blocks to the array -/

variable (V : (c : Dev nD) → (b : Ref sig .tc) → Buf (Elt Ideal) ((c : Thread nD τ).loc b))

/-- The head's output column, as one function of the arrays the region reads. -/
abbrev G (c : Dev nD) : OutCol.Idx → EReal :=
  scoreCol (V c main_v42) (V c main_v23) (V c main_arg5) (V c main_arg6) (V c main_arg7) (V c main_arg8) (V c main_arg9)

theorem hz2 : (![0, 0] : Fin 2 → Nat) = fun _ => 0 := funext fun a => by fin_cases a <;> rfl
theorem hz1 : (![0] : Fin 1 → Nat) = fun _ => 0 := funext fun a => by fin_cases a; rfl

/-- The index maps, decided over the ten points: the node-feature windows and the output move with the point on the row
    axis; the weights and biases stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-! ### Each window's block, read where it lies in its array -/

/-- The aggregated features' block at point `t`: rows `5000 t` onward. -/
theorem agg_blk (c : Dev nD) (t : Fin cfg1.N) (p : Fin 5000) (j : Fin 128) (r : Fin 50000) (hr : r.val = t.val * 5000 + p.val) :
    iblk1 (F := Ideal) V c 0 t (ix2 p j) = V c main_v42 (ix2 r j) := by
  obtain ⟨e0, e1, -⟩ := idx_facts t
  show V c main_v42 (((cfg1.win 0).blk t).view.emb (ix2 p j)) = V c main_v42 (ix2 r j)
  refine congrArg (V c main_v42) (funext fun a => Fin.ext ?_)
  match a with
  | ⟨0, _⟩ => show win1_0.index t (0 : Fin 2) * 5000 + 1 * p.val = r.val; omega
  | ⟨1, _⟩ => show win1_0.index t (1 : Fin 2) * 128 + 1 * j.val = j.val; omega

/-- The node features' block at point `t`: rows `5000 t` onward. -/
theorem h_blk (c : Dev nD) (t : Fin cfg1.N) (p : Fin 5000) (j : Fin 128) (r : Fin 50000) (hr : r.val = t.val * 5000 + p.val) :
    iblk1 (F := Ideal) V c 1 t (ix2 p j) = V c main_v23 (ix2 r j) := by
  obtain ⟨-, -, e0, e1, -⟩ := idx_facts t
  show V c main_v23 (((cfg1.win 1).blk t).view.emb (ix2 p j)) = V c main_v23 (ix2 r j)
  refine congrArg (V c main_v23) (funext fun a => Fin.ext ?_)
  match a with
  | ⟨0, _⟩ => show win1_1.index t (0 : Fin 2) * 5000 + 1 * p.val = r.val; omega
  | ⟨1, _⟩ => show win1_1.index t (1 : Fin 2) * 128 + 1 * j.val = j.val; omega

/-- The left weight's block is the whole matrix. -/
theorem wl_blk (c : Dev nD) (t : Fin cfg1.N) (j k : Fin 128) :
    iblk1 (F := Ideal) V c 2 t (ix2 j k) = V c main_arg5 (ix2 j k) := by
  obtain ⟨-, -, -, -, e0, e1, -⟩ := idx_facts t
  show V c main_arg5 (((cfg1.win 2).blk t).view.emb (ix2 j k)) = V c main_arg5 (ix2 j k)
  refine congrArg (V c main_arg5) (funext fun a => Fin.ext ?_)
  match a with
  | ⟨0, _⟩ => show win1_2.index t (0 : Fin 2) * 128 + 1 * j.val = j.val; omega
  | ⟨1, _⟩ => show win1_2.index t (1 : Fin 2) * 128 + 1 * k.val = k.val; omega

/-- The right weight's block is the whole matrix. -/
theorem wr_blk (c : Dev nD) (t : Fin cfg1.N) (j k : Fin 128) :
    iblk1 (F := Ideal) V c 3 t (ix2 j k) = V c main_arg6 (ix2 j k) := by
  obtain ⟨-, -, -, -, -, -, e0, e1, -⟩ := idx_facts t
  show V c main_arg6 (((cfg1.win 3).blk t).view.emb (ix2 j k)) = V c main_arg6 (ix2 j k)
  refine congrArg (V c main_arg6) (funext fun a => Fin.ext ?_)
  match a with
  | ⟨0, _⟩ => show win1_3.index t (0 : Fin 2) * 128 + 1 * j.val = j.val; omega
  | ⟨1, _⟩ => show win1_3.index t (1 : Fin 2) * 128 + 1 * k.val = k.val; omega

/-- The bias row's block is the whole row. -/
theorem b_blk (c : Dev nD) (t : Fin cfg1.N) (k : Fin 128) :
    iblk1 (F := Ideal) V c 4 t (ix1 k) = V c main_arg7 (ix1 k) := by
  obtain ⟨-, -, -, -, -, -, -, -, e0, -⟩ := idx_facts t
  show V c main_arg7 (((cfg1.win 4).blk t).view.emb (ix1 k)) = V c main_arg7 (ix1 k)
  refine congrArg (V c main_arg7) (funext fun a => Fin.ext ?_)
  match a with
  | ⟨0, _⟩ => show win1_4.index t (0 : Fin 1) * 128 + 1 * k.val = k.val; omega

/-- The head's weight column's block is the whole column. -/
theorem wfc_blk (c : Dev nD) (t : Fin cfg1.N) (k : Fin 128) (u : Fin 1) :
    iblk1 (F := Ideal) V c 5 t (ix2 k u) = V c main_arg8 (ix2 k u) := by
  obtain ⟨-, -, -, -, -, -, -, -, -, e0, e1, -⟩ := idx_facts t
  show V c main_arg8 (((cfg1.win 5).blk t).view.emb (ix2 k u)) = V c main_arg8 (ix2 k u)
  refine congrArg (V c main_arg8) (funext fun a => Fin.ext ?_)
  match a with
  | ⟨0, _⟩ => show win1_5.index t (0 : Fin 2) * 128 + 1 * k.val = k.val; omega
  | ⟨1, _⟩ => show win1_5.index t (1 : Fin 2) * 1 + 1 * u.val = u.val; omega

/-- The head's bias's block is the whole (one-entry) array. -/
theorem bfc_blk (c : Dev nD) (t : Fin cfg1.N) (u : Fin 1) :
    iblk1 (F := Ideal) V c 6 t (ix1 u) = V c main_arg9 (ix1 u) := by
  obtain ⟨-, -, -, -, -, -, -, -, -, -, -, e0, -⟩ := idx_facts t
  show V c main_arg9 (((cfg1.win 6).blk t).view.emb (ix1 u)) = V c main_arg9 (ix1 u)
  refine congrArg (V c main_arg9) (funext fun a => Fin.ext ?_)
  match a with
  | ⟨0, _⟩ => show win1_6.index t (0 : Fin 1) * 1 + 1 * u.val = u.val; omega

/-! ### One row of the block is one row of the network's score -/

/-- Blocks that agree, entry by entry, with the arrays at row `r` (the node features) or everywhere (the weights and
    biases) give, at row `p`, the score of node `r`: the same sums of the same products, in the same grouping. -/
theorem row_eq (a h : NodeMat.Idx → EReal) (Wl Wr : WMat.Idx → EReal) (b : BiasRow.Idx → EReal)
    (Wfc : HeadCol.Idx → EReal) (bfc : HeadBias.Idx → EReal)
    (x0 x1 : Vec Ideal S5000x128 .f32) (x2 x3 : Vec Ideal S128x128 .f32) (x4 : Vec Ideal S128 .f32)
    (x5 : Vec Ideal S128x1 .f32) (x6 : Vec Ideal S1 .f32) (p : Fin 5000) (u : Fin 1) (r : Fin 50000)
    (h0 : ∀ j, x0 (ix2 p j) = a (ix2 r j)) (h1 : ∀ j, x1 (ix2 p j) = h (ix2 r j))
    (h2 : ∀ j k, x2 (ix2 j k) = Wl (ix2 j k)) (h3 : ∀ j k, x3 (ix2 j k) = Wr (ix2 j k))
    (h4 : ∀ k, x4 (ix1 k) = b (ix1 k)) (h5 : ∀ k, x5 (ix2 k u) = Wfc (ix2 k (0 : Fin 1)))
    (h6 : x6 (ix1 u) = bfc (ix1 (0 : Fin 1))) :
    (∑ k : Fin 128, ((∑ j : Fin 128, x0 (ix2 p j) * x2 (ix2 j k)) + (∑ j : Fin 128, x1 (ix2 p j) * x3 (ix2 j k)) + x4 (ix1 k))
        * x5 (ix2 k u)) + x6 (ix1 u)
      = score a h Wl Wr b Wfc bfc r := by
  unfold score combine
  exact congrArg₂ (· + ·)
    (Finset.sum_congr rfl fun k _ => congrArg₂ (· * ·)
      (congrArg₂ (· + ·)
        (congrArg₂ (· + ·)
          (Finset.sum_congr rfl fun j _ => congrArg₂ (· * ·) (h0 j) (h2 j k))
          (Finset.sum_congr rfl fun j _ => congrArg₂ (· * ·) (h1 j) (h3 j k)))
        (h4 k))
      (h5 k))
    h6

/-! ### What a point writes back, and the cover -/

/-- What point `t` writes back is block `t` of the score column. -/
theorem flushed_eq (c : Dev nD) (t : Fin cfg1.N) :
    (dat1 (F := Ideal) V c).flushed 7 t = ((cfg1.win 7).blk t).view.read (Elt Ideal) (G V c) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2, View.ld_unit_zero (S := S128) hz1,
    View.ld_unit_zero (S := S128x1) hz2, View.ld_unit_zero (S := S1) hz1]
  funext y
  have hy0 : (y 0).val < 5000 := (y 0).isLt
  have hy1 : (y 1).val < 1 := (y 1).isLt
  obtain ⟨-, -, -, -, -, -, -, -, -, -, -, -, e0, e1⟩ := idx_facts t
  have e : (cfg1.win 7).xinj (grid1.coords t) y = ix2 (⟨(y 0).val, hy0⟩ : Fin 5000) (⟨(y 1).val, hy1⟩ : Fin 1) :=
    funext fun a => by match a with | ⟨0, _⟩ => rfl | ⟨1, _⟩ => rfl
  refine (congrArg (k1_pay1 (iblk1 V c 0 t) (iblk1 V c 1 t) (iblk1 V c 2 t) (iblk1 V c 3 t) (iblk1 V c 4 t) (iblk1 V c 5 t) (iblk1 V c 6 t)) e).trans ?_
  refine (pay_apply _ _ _ _ _ _ _ _ _).trans ?_
  show _ = score (V c main_v42) (V c main_v23) (V c main_arg5) (V c main_arg6) (V c main_arg7) (V c main_arg8) (V c main_arg9)
    ((((cfg1.win 7).blk t).view.emb y) 0)
  have hr : ((((cfg1.win 7).blk t).view.emb y) 0).val = t.val * 5000 + (y 0).val := by
    show win1_7.index t (0 : Fin 2) * 5000 + 1 * (y 0).val = t.val * 5000 + (y 0).val; omega
  have hu : (⟨(y 1).val, hy1⟩ : Fin 1) = 0 := Subsingleton.elim _ _
  exact row_eq (V c main_v42) (V c main_v23) (V c main_arg5) (V c main_arg6) (V c main_arg7) (V c main_arg8) (V c main_arg9)
    (iblk1 V c 0 t) (iblk1 V c 1 t) (iblk1 V c 2 t) (iblk1 V c 3 t) (iblk1 V c 4 t) (iblk1 V c 5 t) (iblk1 V c 6 t)
    ⟨(y 0).val, hy0⟩ ⟨(y 1).val, hy1⟩ ((((cfg1.win 7).blk t).view.emb y) 0)
    (fun j => agg_blk V c t _ j _ hr) (fun j => h_blk V c t _ j _ hr) (fun j k => wl_blk V c t j k) (fun j k => wr_blk V c t j k)
    (fun k => b_blk V c t k) (fun k => by rw [hu]; exact wfc_blk V c t k 0) (by rw [hu]; exact bfc_blk V c t 0)

/-- An index of the output array is in point `t`'s block iff each coordinate is in the block's range on its axis. -/
theorem mem_blk (t : Fin cfg1.N) (i : S50000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v43).slice (win1_7.rect t)).set ↔ _
  rw [View.set_slice_whole, Rect.mem_set_unit]
  exact Iff.rfl

/-- Every row of the output lies in the block of the point `row / 5000`, which writes it back. -/
theorem cover (i : S50000x1.Idx) : ∃ t : Fin cfg1.N, (cfg1.win 7).flush t = true ∧ i ∈ ((cfg1.win 7).blk t).view.set := by
  have hi0 : (i 0).val < 50000 := (i 0).isLt
  have hi1 : (i 1).val < 1 := (i 1).isLt
  obtain ⟨t, ht⟩ : ∃ t : Fin cfg1.N, t.val = (i 0).val / 5000 :=
    ⟨⟨(i 0).val / 5000, by show _ < grid1.N; rw [N_1]; omega⟩, rfl⟩
  obtain ⟨-, -, -, -, -, -, -, -, -, -, -, -, e0, e1⟩ := idx_facts t
  refine ⟨t, flush1_7 t, ?_⟩
  rw [mem_blk]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 1 ≤ (i 1).val ∧ (i 1).val < win1_7.index t (1 : Fin 2) * 1 + 1; omega

/-- THE REGION'S OUTPUT: after its ten points the output array holds the score column of the arrays the region reads. -/
theorem region1_value (c : Dev nD) :
    (dat1 (F := Ideal) V c).arrAt 7 cfg1.N
      = scoreCol (V c main_v42) (V c main_v23) (V c main_arg5) (V c main_arg6) (V c main_arg7) (V c main_arg8) (V c main_arg9) :=
  (dat1 (F := Ideal) V c).arrAt_eq_of_cover 7 (G V c) (fun t _ => flushed_eq V c t) cover

end Cert.Sage.K1

end
-- ==== Proof.RefValue.lean ====
/-
  The reference program's value, read index by index.

  Each stage of the reference is read at an index from its operands: a matrix product is the sum over the
  128 contracted positions, a broadcast reads its operand at the projected index, an addition adds, the
  clamp is a maximum with zero. Chaining these readings shows that the first layer's output is
  `hidden` of the aggregated and the own features, and that the final output is `scoreFlat` of the
  second aggregation and the hidden features. The aggregation itself (gather, scatter-add, divide by the
  clamped in-degree) is never read at an index: the second layer applies the very same chain of
  operations to the hidden features, so the two aggregations are one function `agg` of the edge list.
-/
import proofs.«147138_j62861141344333_1_alg».proof.Proof.Model
import proofs.«147138_j62861141344333_1_alg».proof.Proof.Gen.ReferenceIdeal.Read

noncomputable section

open Idealize.ShloMosaic Idealize.ShloMosaic.TcCoe Idealize.SL.Sem Idealize.ShloMosaic.ValueIdx

namespace Cert.Sage.Ref

open Cert.ReferenceIdeal Cert.ReferenceIdeal.Gen Cert.ReferenceIdeal.Read Cert.Sage

/-- The neighbour aggregation as the reference computes it from the edge list `e`. -/
def agg (e : (⟨S2x800000, .i32⟩ : BufTy).Contents (Elt Ideal)) (x : NodeMat.Idx → EReal) : NodeMat.Idx → EReal :=
  val_main_v22 (F := Ideal) x e

/-! ## The index maps of the generated readings, in coordinates -/

/-- Product %23: the left operand is read at row `j 0`, contracted position `k`. -/
theorem lidx23_eq (j : S50000x128.Idx) (k : Fin 128) :
    lidx_main_v23 j k = ix2 (n0 := 50000) (n1 := 128) (j 0) k :=
  funext fun a => Fin.ext (by match a with | ⟨0, _⟩ => rfl | ⟨1, _⟩ => rfl)
/-- Product %23: the right operand is read at contracted position `k`, column `j 1`. -/
theorem ridx23_eq (j : S50000x128.Idx) (k : Fin 128) :
    ridx_main_v23 j k = ix2 (n0 := 128) (n1 := 128) k (j 1) :=
  funext fun a => Fin.ext (by match a with | ⟨0, _⟩ => rfl | ⟨1, _⟩ => rfl)

/-- Product %24: the left operand is read at row `j 0`, contracted position `k`. -/
theorem lidx24_eq (j : S50000x128.Idx) (k : Fin 128) :
    lidx_main_v24 j k = ix2 (n0 := 50000) (n1 := 128) (j 0) k :=
  funext fun a => Fin.ext (by match a with | ⟨0, _⟩ => rfl | ⟨1, _⟩ => rfl)
/-- Product %24: the right operand is read at contracted position `k`, column `j 1`. -/
theorem ridx24_eq (j : S50000x128.Idx) (k : Fin 128) :
    ridx_main_v24 j k = ix2 (n0 := 128) (n1 := 128) k (j 1) :=
  funext fun a => Fin.ext (by match a with | ⟨0, _⟩ => rfl | ⟨1, _⟩ => rfl)

/-- Product %49: the left operand is read at row `j 0`, contracted position `k`. -/
theorem lidx49_eq (j : S50000x128.Idx) (k : Fin 128) :
    lidx_main_v49 j k = ix2 (n0 := 50000) (n1 := 128) (j 0) k :=
  funext fun a => Fin.ext (by match a with | ⟨0, _⟩ => rfl | ⟨1, _⟩ => rfl)
/-- Product %49: the right operand is read at contracted position `k`, column `j 1`. -/
theorem ridx49_eq (j : S50000x128.Idx) (k : Fin 128) :
    ridx_main_v49 j k = ix2 (n0 := 128) (n1 := 128) k (j 1) :=
  funext fun a => Fin.ext (by match a with | ⟨0, _⟩ => rfl | ⟨1, _⟩ => rfl)

/-- Product %50: the left operand is read at row `j 0`, contracted position `k`. -/
theorem lidx50_eq (j : S50000x128.Idx) (k : Fin 128) :
    lidx_main_v50 j k = ix2 (n0 := 50000) (n1 := 128) (j 0) k :=
  funext fun a => Fin.ext (by match a with | ⟨0, _⟩ => rfl | ⟨1, _⟩ => rfl)
/-- Product %50: the right operand is read at contracted position `k`, column `j 1`. -/
theorem ridx50_eq (j : S50000x128.Idx) (k : Fin 128) :
    ridx_main_v50 j k = ix2 (n0 := 128) (n1 := 128) k (j 1) :=
  funext fun a => Fin.ext (by match a with | ⟨0, _⟩ => rfl | ⟨1, _⟩ => rfl)

/-- The first layer's bias, broadcast over the rows, is read at column `j 1`. -/
theorem bias1_eq (j : S50000x128.Idx) :
    idx_main_v26 (idx_main_v27 j) = ix1 (n := 128) (j 1) :=
  funext fun a => Fin.ext (by match a with | ⟨0, _⟩ => rfl)
/-- The second layer's bias, broadcast over the rows, is read at column `j 1`. -/
theorem bias2_eq (j : S50000x128.Idx) :
    idx_main_v52 (idx_main_v53 j) = ix1 (n := 128) (j 1) :=
  funext fun a => Fin.ext (by match a with | ⟨0, _⟩ => rfl)

/-! ## The two layers' linear combines -/

/-- The first layer before its clamp is the combine of the aggregated and the own features. -/
theorem combine1_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (j : S50000x128.Idx) :
    val_main_v28 (F := Ideal) x0 x1 x2 x3 x4 j = combine (agg x1 x0) x0 x2 x3 x4 (j 0) (j 1) := by
  rw [val_main_v28_apply, val_main_v25_apply, val_main_v23_apply, val_main_v24_apply, val_main_v27_apply,
    val_main_v26_apply, Ideal.addf_def, Ideal.addf_def, bias1_eq]
  simp only [lidx23_eq, ridx23_eq, lidx24_eq, ridx24_eq]
  rfl

/-- The first layer's output is `hidden` of the aggregated and the own features. -/
theorem hidden_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4 = hidden (agg x1 x0) x0 x2 x3 x4 := by
  funext i
  rw [val_main_v29_apply, val_main_call0_v0_apply, val_main_call0_cst_apply, Ideal.maximumf_def, Ideal.ofBits_def,
    Ideal.ofBits_zero_f32, combine1_eq]
  rfl

/-! ## The second aggregation is the first one applied to the hidden features -/

/-- Both aggregations are the same chain of operations: gather the source rows, scatter-add them into
    zeros at the destination rows, and divide by the in-degree clamped below at one. -/
theorem agg2_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal)) :
    val_main_v48 (F := Ideal) x0 x1 x2 x3 x4 = agg x1 (val_main_v29 (F := Ideal) x0 x1 x2 x3 x4) := by
  unfold agg val_main_v48 val_main_v22
  unfold val_main_v39 val_main_v13 val_main_v47 val_main_v21
  unfold val_main_v36 val_main_v10 val_main_v37 val_main_v11 val_main_v38 val_main_v12 val_main_v46 val_main_v20
  unfold val_main_v35 val_main_v9 val_main_cst_6 val_main_cst val_main_v45 val_main_v19
  unfold val_main_v34 val_main_v8 val_main_v43 val_main_v17 val_main_v44 val_main_v18
  unfold val_main_v31 val_main_v5 val_main_v33 val_main_v7 val_main_v40 val_main_v14 val_main_v41 val_main_v15
    val_main_v42 val_main_v16 val_main_cst_9 val_main_cst_3
  unfold val_main_v30 val_main_v4 val_main_v32 val_main_v6 val_main_cst_7 val_main_cst_1 val_main_cst_8 val_main_cst_2
  unfold val_main_c_4 val_main_c val_main_c_5 val_main_c_0
  rfl

/-! ## The second layer and the head -/

/-- The second layer is the combine of the second aggregation and the hidden features. -/
theorem combine2_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (j : S50000x128.Idx) :
    val_main_v54 (F := Ideal) x0 x1 x2 x3 x4 x5 x6 x7 j
      = combine (val_main_v48 (F := Ideal) x0 x1 x2 x3 x4) (val_main_v29 (F := Ideal) x0 x1 x2 x3 x4) x5 x6 x7 (j 0) (j 1) := by
  rw [val_main_v54_apply, val_main_v51_apply, val_main_v49_apply, val_main_v50_apply, val_main_v53_apply,
    val_main_v52_apply, Ideal.addf_def, Ideal.addf_def, bias2_eq]
  simp only [lidx49_eq, ridx49_eq, lidx50_eq, ridx50_eq]
  rfl

/-- The head's product reads the second layer at row `i 0`, position `k`. -/
theorem lidx55_eq (i : S50000.Idx) (k : Fin 128) :
    lidx_main_v55 (idx_main_v59 i) k = ix2 (n0 := 50000) (n1 := 128) (i 0) k :=
  funext fun a => Fin.ext (by
    match a with
    | ⟨0, _⟩ => exact Nat.div_one _
    | ⟨1, _⟩ => rfl)
/-- The head's product reads the weight column at position `k`, column 0. -/
theorem ridx55_eq (i : S50000.Idx) (k : Fin 128) :
    ridx_main_v55 (idx_main_v59 i) k = ix2 (n0 := 128) (n1 := 1) k (0 : Fin 1) :=
  funext fun a => Fin.ext (by match a with | ⟨0, _⟩ => rfl | ⟨1, _⟩ => rfl)
/-- The head's bias, broadcast over the rows, is read at its one position. -/
theorem bias3_eq (j : S50000x1.Idx) :
    idx_main_v56 (idx_main_v57 j) = ix1 (n := 1) (0 : Fin 1) :=
  funext fun a => Fin.ext (by match a with | ⟨0, _⟩ => rfl)

/-- The reference's output is `scoreFlat` of the second aggregation and the hidden features. -/
theorem score_eq (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x1, .f32⟩ : BufTy).Contents (Elt Ideal)) (x9 : (⟨S1, .f32⟩ : BufTy).Contents (Elt Ideal)) :
    val_main_v59 (F := Ideal) x0 x1 x2 x3 x4 x5 x6 x7 x8 x9
      = scoreFlat (val_main_v48 (F := Ideal) x0 x1 x2 x3 x4) (val_main_v29 (F := Ideal) x0 x1 x2 x3 x4) x5 x6 x7 x8 x9 := by
  funext i
  rw [val_main_v59_apply, val_main_v58_apply, val_main_v55_apply, val_main_v57_apply, val_main_v56_apply,
    Ideal.addf_def, bias3_eq]
  simp only [lidx55_eq, ridx55_eq, combine2_eq]
  rfl

/-! ## The whole reference -/

/-- The reference computes the network over its own aggregation. -/
theorem ref_value (x0 : (⟨S50000x128, .f32⟩ : BufTy).Contents (Elt Ideal)) (x1 : (⟨S2x800000, .i32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x1, .f32⟩ : BufTy).Contents (Elt Ideal)) (x9 : (⟨S1, .f32⟩ : BufTy).Contents (Elt Ideal)) :
    val_main_v59 (F := Ideal) x0 x1 x2 x3 x4 x5 x6 x7 x8 x9 = network (agg x1) x0 x2 x3 x4 x5 x6 x7 x8 x9 := by
  rw [score_eq, agg2_eq, hidden_eq]
  rfl

end Cert.Sage.Ref

end
-- ==== Proof.lean ====
/-
  A two-layer GraphSAGE network with a linear head, as two tiled kernels among host operations, against its plain
  array reference, over the extended reals.

  Both programs compute, for the node features `x`, an edge list, two layers' weights and biases and the head's:
      h   = max (A x · Wl0 + x · Wr0 + b0) 0
      out = (A h · Wl1 + h · Wr1 + b1) · Wfc + bfc
  where `A` is the neighbour mean along the edges (gather the source rows, add them into the destination rows,
  divide by the in-degree clamped below at one). The reference does it all with whole-array operations. The kernel
  program computes `A` with the very same whole-array operations, and each layer's products, sums and clamp in a
  kernel tiled over the node axis, 5000 rows at a grid point, ten points; its matrix products take their operands
  in a narrower float format, which at the ideal instance is the identity. Entry by entry the two programs add
  and multiply the same terms in the same grouping, so no law of the extended reals is needed and the precondition
  is never opened: `Model.lean` states the common function, `RefValue.lean` reads the reference's stages as it,
  `Region0.lean` / `Region1.lean` read each kernel's output array as its layer of it, `HostFolds.lean` reads the host
  stretches, `KernelValue.lean` chains these back to the launch memory, and `KernelRun.lean` is the kernel
  program's run with its result named. The three frames are the generated ones; the idealization rewrote nothing.
-/
import proofs.«147138_j62861141344333_1_alg».proof.Defs
import proofs.«147138_j62861141344333_1_alg».proof.Proof.Gen.Kernel
import proofs.«147138_j62861141344333_1_alg».proof.Proof.Gen.Kernel.Skeleton
import proofs.«147138_j62861141344333_1_alg».proof.Proof.Gen.Kernel.Launch
import proofs.«147138_j62861141344333_1_alg».proof.Proof.Gen.Kernel.Points
import proofs.«147138_j62861141344333_1_alg».proof.Proof.Gen.Kernel.Frame
import proofs.«147138_j62861141344333_1_alg».proof.Proof.Gen.KernelIdeal
import proofs.«147138_j62861141344333_1_alg».proof.Proof.Gen.KernelIdeal.Skeleton
import proofs.«147138_j62861141344333_1_alg».proof.Proof.Gen.KernelIdeal.Launch
import proofs.«147138_j62861141344333_1_alg».proof.Proof.Gen.KernelIdeal.Points
import proofs.«147138_j62861141344333_1_alg».proof.Proof.Gen.KernelIdeal.Frame
import proofs.«147138_j62861141344333_1_alg».proof.Proof.Gen.ReferenceIdeal
import proofs.«147138_j62861141344333_1_alg».proof.Proof.Gen.Pre_finite_inputs
import proofs.«147138_j62861141344333_1_alg».proof.Proof.Gen.ReferenceIdeal.Run
import proofs.«147138_j62861141344333_1_alg».proof.Proof.Gen.ReferenceIdeal.Read
import proofs.«147138_j62861141344333_1_alg».proof.Proof.Model
import proofs.«147138_j62861141344333_1_alg».proof.Proof.KernelRun
import proofs.«147138_j62861141344333_1_alg».proof.Proof.HostFolds
import proofs.«147138_j62861141344333_1_alg».proof.Proof.KernelValue
import proofs.«147138_j62861141344333_1_alg».proof.Proof.Region0
import proofs.«147138_j62861141344333_1_alg».proof.Proof.Region1
import proofs.«147138_j62861141344333_1_alg».proof.Proof.RefValue
import Idealize.ShloMosaic.Adequacy
import Idealize.ShloMosaic.Init

noncomputable section

namespace Cert.Proof

open Idealize.ShloMosaic Idealize.ShloMosaic.TcCoe Idealize.SL.Sem
open Cert.Sage

/-- The two programs' neighbour means are one function: the reference's chain of operations on the edge list is
    the kernel program's on the list's two rows, operation for operation. -/
theorem agg_eq (e : (⟨Cert.ReferenceIdeal.S2x800000, .i32⟩ : BufTy).Contents (Elt Ideal)) :
    Ref.agg e = KHost.meanAgg (F := Ideal) (KHost.srcOf e) (KHost.dstOf e) := by
  funext x
  unfold Ref.agg KHost.meanAgg KHost.srcOf KHost.dstOf
  open Cert.ReferenceIdeal.Read in
  unfold val_main_v22 val_main_v13 val_main_v21
  open Cert.ReferenceIdeal.Read in
  unfold val_main_v10 val_main_v11 val_main_v12 val_main_v20 val_main_v9 val_main_cst
  open Cert.ReferenceIdeal.Read in
  unfold val_main_v19 val_main_v8 val_main_v17 val_main_v18 val_main_v5 val_main_v7 val_main_v14 val_main_v15 val_main_v16 val_main_cst_3
  open Cert.ReferenceIdeal.Read in
  unfold val_main_v4 val_main_v6 val_main_cst_1 val_main_cst_2 val_main_c val_main_c_0
  open Cert.ReferenceIdeal.Read in
  unfold val_main_v1 val_main_v3 val_main_v0 val_main_v2
  rfl

/-- The word-level kernel program runs and keeps its arguments: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the network's scores over the one neighbour mean: the kernel program by its
    run with the result named, the two regions' arrays and the host stretches read back to the launch memory;
    the reference by its run read stage by stage; the arguments agree. -/
theorem algebraic : Cert.algebraic_KernelIdeal_ReferenceIdeal := by
  intro m ρ m' ρ' _ hagree
  refine ⟨fun c => network (Ref.agg (m ((c.tc : Thread Cert.KernelIdeal.nD Cert.KernelIdeal.τ).loc Cert.KernelIdeal.main_arg1))) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩) (KRun.run_named (F := Ideal) m ρ)
    refine (KValue.result_eq m ρ c (fun V c => K0.region0_value V c) (fun V c => K1.region1_value V c)).trans ?_
    show _ = network _ _ _ _ _ _ _ _ _ _
    rw [agg_eq]
    rfl
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v59_eq, Ref.ref_value, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
